-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S16x2048x64 .f32) (main_arg1 : FVec F S16x2048x64 .f32) (main_arg2 : FVec F S16x2048x64 .f32) (main_arg3 : FVec F S16x2048x2048 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x64, .f32⟩
  | .hbm, ⟨5, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S512x2048_S1x512x2048 : S512x2048.ShapeCasts S1x512x2048
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .f32 = 32 ∨ (Rect.block (s := S16x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .i1⟩
  | .hbm, ⟨12, _⟩ => ⟨S_, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  Dense attention with a multiplicative mask, row by row, over the extended reals.

  For one query row `q : Fin 64 → EReal`, the keys `kk : Fin 2048 → Fin 64 → EReal` of its batch and the row's mask
  entries `mk : Fin 2048 → EReal`, the score against key `k` is `(∑ d, q d · kk k d) · (1/8) · mk k`; a score that is
  exactly zero is replaced by −∞; the row is then normalised by the softmax: subtract the row's maximum (taken from −∞),
  exponentiate, divide by the row's sum. The attention output at column `d` is the sum over the keys of the row's
  weights times the values' column `d`.

  The one arithmetic law the certificate needs is stated here too: on every extended real, dividing by the word
  `8.0` is multiplying by the word `0.125` (both are exact powers of two).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx
open scoped BigOperators

/-! ## The four words the two programs spell -/

/-- `0.125`. -/
abbrev wEighth : EReal := Ideal.ofBits .f32 0x3E000000#32
/-- `8.0`. -/
abbrev wEight : EReal := Ideal.ofBits .f32 0x41000000#32
/-- `+0.0`. -/
abbrev wZero : EReal := Ideal.ofBits .f32 0x00000000#32
/-- `-inf`. -/
abbrev wNegInf : EReal := Ideal.ofBits .f32 0xFF800000#32

/-- The word `8.0` denotes the real number 8. -/
theorem wEight_eq : wEight = ((8 : ℝ) : EReal) := by
  simp [wEight, Ideal.ofBits, Ideal.ieee, -EReal.coe_mul]; norm_num

/-- The word `0.125` denotes the real number 1/8. -/
theorem wEighth_eq : wEighth = ((1 / 8 : ℝ) : EReal) := by
  simp [wEighth, Ideal.ofBits, Ideal.ieee, -EReal.coe_mul]; norm_num

/-- Dividing by `8.0` is multiplying by `0.125`, on every extended real (the infinities included: 8 is neither zero
    nor infinite, so the quotient is the product with the inverse). -/
theorem div_eight (x : EReal) : Ideal.div x wEight = x * wEighth := by
  rw [wEight_eq, wEighth_eq, Ideal.div_coe (by norm_num)]

/-! ## One row -/

/-- A score that is exactly zero becomes −∞; any other score is kept. -/
def fill (s : EReal) : EReal := Scalar.select (Ideal.cmp .oeq s wZero) wNegInf s

/-- The masked scores of one query row against every key. -/
def scoreRow (q : Fin 64 → EReal) (kk : Fin 2048 → Fin 64 → EReal) (mk : Fin 2048 → EReal) : Fin 2048 → EReal :=
  fun k => fill ((∑ d : Fin 64, q d * kk k d) * wEighth * mk k)

/-- The maximum of a row, taken from −∞ (and once more against −∞, as both programs do). -/
def rowMax {n : Nat} (t : Fin n → EReal) : EReal := max wNegInf ((Finset.univ : Finset (Fin n)).fold max wNegInf t)

/-- The row shifted by its maximum, exponentiated. -/
def rowExp {n : Nat} (t : Fin n → EReal) (k : Fin n) : EReal := Ideal.exp (t k - rowMax t)

/-- The softmax of a row. -/
def soft {n : Nat} (t : Fin n → EReal) (k : Fin n) : EReal := Ideal.div (rowExp t k) (∑ j : Fin n, rowExp t j)

/-- The attention weights of one query row. -/
def attRow (q : Fin 64 → EReal) (kk : Fin 2048 → Fin 64 → EReal) (mk : Fin 2048 → EReal) : Fin 2048 → EReal :=
  soft (scoreRow q kk mk)

/-- One entry of the attention output: the row's weights against one column of the values. -/
def outRow (q : Fin 64 → EReal) (kk : Fin 2048 → Fin 64 → EReal) (mk : Fin 2048 → EReal) (vv : Fin 2048 → EReal) : EReal :=
  ∑ k : Fin 2048, attRow q kk mk k * vv k

/-! ## The two result arrays as functions of the four argument arrays -/

abbrev SQ : Shape := ⟨3, ![16, 2048, 64]⟩
abbrev SM : Shape := ⟨3, ![16, 2048, 2048]⟩

/-- The attention matrix: entry `(b, n, k)` is query row `(b, n)`'s weight on key `k` of batch `b`. -/
def attArr (Q K : SQ.Idx → EReal) (M : SM.Idx → EReal) : SM.Idx → EReal := fun i =>
  attRow (fun d => Q (ix3 (i 0) (i 1) d)) (fun k d => K (ix3 (i 0) k d)) (fun k => M (ix3 (i 0) (i 1) k)) (i 2)

/-- The attention output: entry `(b, n, d)` is query row `(b, n)`'s weights against column `d` of batch `b`'s values. -/
def outArr (Q K V : SQ.Idx → EReal) (M : SM.Idx → EReal) : SQ.Idx → EReal := fun i =>
  outRow (fun d => Q (ix3 (i 0) (i 1) d)) (fun k d => K (ix3 (i 0) k d)) (fun k => M (ix3 (i 0) (i 1) k))
    (fun k => V (ix3 (i 0) k (i 2)))

end Cert.Attn

end
-- ==== Proof.KernelRow.lean ====
/-
  One block of the kernel's body, read at an index, is the row functions of the specification.

  At a grid point the body holds a block of 512 query rows `P0`, all 2048 key rows `P1` and value rows `P2` of the
  batch, and the 512 × 2048 block `P3` of the mask. Its first matrix product at `(r, c)` is the dot product of query
  row `r` with key row `c` (narrowing to bf16 changes nothing over the extended reals, and the transposed keys are read
  back at the swapped index); scaled by `0.125`, multiplied by the mask and with exact zeros sent to −∞, each row is
  normalised by the softmax (its maximum and its sum are kept as a 512 × 1 column and read back along the row); the
  second matrix product at `(r, d)` sums the row's weights against column `d` of the values.
-/
import proofs.«174756_j62251255988379_1_alg».proof.Proof.Gen.KernelIdeal.Skeleton
import proofs.«174756_j62251255988379_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attn.KernelRow

open Idealize.ShloMosaic Idealize.ShloMosaic.ValueIdx
open Cert.KernelIdeal Cert.KernelIdeal.Gen
open Cert.Attn
open scoped BigOperators

/-! ## The two matrix products' index maps -/

theorem lhsQK_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhsQK_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhsQK_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhsQK_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

theorem lhsAV_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhsAV_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhsAV_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhsAV_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-! ## The scores -/

/-- The first matrix product at `(r, c)`: query row `r` against key row `c`. -/
theorem scores_at (P0 : Vec Ideal S1x512x64 .f32) (P1 : Vec Ideal S1x2048x64 .f32) (r : Fin 512) (c : Fin 2048) :
    matmul (F := Ideal) dot_S512x64_S64x2048_S512x2048_1_0_0_1_n_n none
        (truncf (F := Ideal) .bf16 (shapeCast S512x64 P0 shapeCasts_S1x512x64_S512x64) bitsLt_bf16_f32)
        (transpose S64x2048 [1, 0] (truncf (F := Ideal) .bf16 (shapeCast S2048x64 P1 shapeCasts_S1x2048x64_S2048x64) bitsLt_bf16_f32) transposes_S2048x64_p1_0_S64x2048)
        (constant (F := Ideal) S512x2048 .f32 0x00000000#32) (ix2 r c)
      = ∑ d : Fin 64, P0 (ix3 (0 : Fin 1) r d) * P1 (ix3 (0 : Fin 1) c d) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 r c) ((contrEquiv1 dot_S512x64_S64x2048_S512x2048_1_0_0_1_n_n 64 rfl rfl).symm k) = ix2 r k := funext fun a => Fin.ext (by
    match a with
    | ⟨0, _⟩ => exact lhsQK_0 _ _
    | ⟨1, _⟩ => exact (lhsQK_1 _ _).trans hk)
  have er : dot_S512x64_S64x2048_S512x2048_1_0_0_1_n_n.rhsIdx (ix2 r c) ((contrEquiv1 dot_S512x64_S64x2048_S512x2048_1_0_0_1_n_n 64 rfl rfl).symm k) = ix2 k c := funext fun a => Fin.ext (by
    match a with
    | ⟨0, _⟩ => exact (rhsQK_0 _ _).trans hk
    | ⟨1, _⟩ => exact rhsQK_1 _ _)
  rw [el, er, truncf_apply, shapeCast_1ab_ab_apply, transpose_ix2_apply, truncf_apply, shapeCast_1ab_ab_apply]

/-! ## A row's statistic kept as a column and read back along the row -/

/-- A vector of 512 row statistics, cast to a 512 × 1 column and broadcast along the 2048 columns, reads at `(r, c)`
    the statistic of row `r`. -/
theorem column_at (x : FVec Ideal S512 .f32) (r : Fin 512) (c : Fin 2048) :
    broadcastTo S512x2048 (shapeCast S512x1 x shapeCasts_S512_S512x1) broadcasts_S512x1_S512x2048 (ix2 r c) = x (ix1 r) := by
  refine (broadcastTo_apply _ broadcasts_S512x1_S512x2048 (ix2 r c) (ix2 r (0 : Fin 1)) (fun a => ?_)).trans ?_
  · match a with
    | ⟨0, _⟩ => show r.val = if (512 : Nat) = 1 then 0 else r.val; rw [if_neg (by decide)]
    | ⟨1, _⟩ => show 0 = if (1 : Nat) = 1 then 0 else c.val; rw [if_pos rfl]
  · exact shapeCast_apply x shapeCasts_S512_S512x1 _ _ (by
      rw [Shape.rowMajor_val_one, Shape.rowMajor_val_two]
      show r.val = r.val * 1 + 0
      omega)

/-- The row maximum the body takes: the fold of `max` from −∞ along the row, then `max` with −∞ once more. -/
theorem rowMax_at (S : FVec Ideal S512x2048 .f32) (r : Fin 512) :
    maximumf (broadcast S512 (Scalar.ofBits (F := Ideal) .f32 0xFF800000#32))
        (multiReduction .maximumf [1] S512 S 0xFF800000#32 reduces_S512x2048_S512 (.inl rfl) rfl) (ix1 r)
      = rowMax (fun k : Fin 2048 => S (ix2 r k)) := by
  rw [maximumf_apply, broadcast_apply]
  unfold rowMax
  refine congrArg (max _) ?_
  refine (Ideal.multiReduction_maximumf_single S _ reduces_S512x2048_S512 _ _ (ix1 r)).trans ?_
  refine congrArg (fun f => (Finset.univ : Finset (Fin 2048)).fold max wNegInf f) (funext fun k => ?_)
  exact congrArg S (funext fun a => Fin.ext (by match a with | ⟨0, _⟩ => rfl | ⟨1, _⟩ => rfl))

/-- The row sum the body takes. -/
theorem rowSum_at (E : FVec Ideal S512x2048 .f32) (r : Fin 512) :
    multiReduction .add [1] S512 E 0x00000000#32 reduces_S512x2048_S512 (.inl rfl) rfl (ix1 r)
      = ∑ k : Fin 2048, E (ix2 r k) := by
  refine (Ideal.multiReduction_add_single E _ reduces_S512x2048_S512 _ _ (ix1 r)).trans ?_
  refine Finset.sum_congr rfl fun k _ => ?_
  exact congrArg E (funext fun a => Fin.ext (by match a with | ⟨0, _⟩ => rfl | ⟨1, _⟩ => rfl))

/-! ## The softmax of a block of masked scores -/

/-- The body's softmax of any 512 × 2048 block `S`, at `(r, c)`, is the softmax of row `r` at `c`. -/
theorem softmax_at (S : FVec Ideal S512x2048 .f32) (r : Fin 512) (c : Fin 2048) :
    divf
      (exp (subf S (broadcastTo S512x2048 (shapeCast S512x1
        (maximumf (broadcast S512 (Scalar.ofBits (F := Ideal) .f32 0xFF800000#32))
          (multiReduction .maximumf [1] S512 S 0xFF800000#32 reduces_S512x2048_S512 (.inl rfl) rfl))
        shapeCasts_S512_S512x1) broadcasts_S512x1_S512x2048)))
      (broadcastTo S512x2048 (shapeCast S512x1
        (multiReduction .add [1] S512
          (exp (subf S (broadcastTo S512x2048 (shapeCast S512x1
            (maximumf (broadcast S512 (Scalar.ofBits (F := Ideal) .f32 0xFF800000#32))
              (multiReduction .maximumf [1] S512 S 0xFF800000#32 reduces_S512x2048_S512 (.inl rfl) rfl))
            shapeCasts_S512_S512x1) broadcasts_S512x1_S512x2048)))
          0x00000000#32 reduces_S512x2048_S512 (.inl rfl) rfl)
        shapeCasts_S512_S512x1) broadcasts_S512x1_S512x2048) (ix2 r c)
      = soft (fun k : Fin 2048 => S (ix2 r k)) c := by
  have hexp : ∀ k : Fin 2048,
      exp (subf S (broadcastTo S512x2048 (shapeCast S512x1
        (maximumf (broadcast S512 (Scalar.ofBits (F := Ideal) .f32 0xFF800000#32))
          (multiReduction .maximumf [1] S512 S 0xFF800000#32 reduces_S512x2048_S512 (.inl rfl) rfl))
        shapeCasts_S512_S512x1) broadcasts_S512x1_S512x2048)) (ix2 r k)
        = rowExp (fun k : Fin 2048 => S (ix2 r k)) k := fun k => by
    show Ideal.exp (S (ix2 r k) - _) = _
    rw [column_at, rowMax_at]
    rfl
  rw [divf_apply, column_at, rowSum_at, hexp]
  unfold soft
  exact congrArg (Ideal.div _) (Finset.sum_congr rfl fun k _ => hexp k)

/-! ## The two payloads at an index -/

/-- The attention block the body stores, at `(r, c)`: query row `r`'s weight on key `c`. -/
theorem pay3_at (P0 : Vec Ideal S1x512x64 .f32) (P1 : Vec Ideal S1x2048x64 .f32) (P3 : Vec Ideal S1x512x2048 .f32)
    (r : Fin 512) (c : Fin 2048) :
    k0_pay3 (F := Ideal) P0 P1 P3 (ix2 r c)
      = attRow (fun d => P0 (ix3 (0 : Fin 1) r d)) (fun k d => P1 (ix3 (0 : Fin 1) k d)) (fun k => P3 (ix3 (0 : Fin 1) r k)) c := by
  unfold k0_pay3
  dsimp only
  refine (softmax_at _ r c).trans ?_
  unfold attRow
  refine congrArg (fun t => soft t c) (funext fun k => ?_)
  rw [select_apply, cmpf_apply, mulf_apply, mulf_apply, broadcast_apply, broadcast_apply, broadcast_apply, scores_at,
    shapeCast_1ab_ab_apply]
  rfl

/-- The output block the body stores, at `(r, d)`: query row `r`'s weights against column `d` of the values. -/
theorem pay4_at (P0 : Vec Ideal S1x512x64 .f32) (P1 : Vec Ideal S1x2048x64 .f32) (P2 : Vec Ideal S1x2048x64 .f32)
    (P3 : Vec Ideal S1x512x2048 .f32) (r : Fin 512) (d : Fin 64) :
    k0_pay4 (F := Ideal) P0 P1 P2 P3 (ix2 r d)
      = outRow (fun d => P0 (ix3 (0 : Fin 1) r d)) (fun k d => P1 (ix3 (0 : Fin 1) k d)) (fun k => P3 (ix3 (0 : Fin 1) r k))
          (fun k => P2 (ix3 (0 : Fin 1) k d)) := by
  unfold k0_pay4
  simp only [matmul]
  rw [Ideal.matmul_constant_zero_apply, ← Equiv.sum_comp (contrEquiv1 dot_S512x2048_S2048x64_S512x64_1_0_0_1_n_n 2048 rfl rfl).symm]
  unfold outRow
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact lhsAV_0 _ _
    | ⟨1, _⟩ => exact (lhsAV_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (rhsAV_0 _ _).trans hk
    | ⟨1, _⟩ => exact rhsAV_1 _ _)
  rw [el, er, truncf_apply, truncf_apply, shapeCast_1ab_ab_apply, pay3_at]

end Cert.Attn.KernelRow

end
-- ==== Proof.KernelBlocks.lean ====
/-
  From the blocks the grid points write back to the two result arrays.

  The grid has one point per batch `b` (16) and block of 512 query rows `qi` (4). At a point the query and mask
  windows hold rows `512·qi …` of batch `b`, the key and value windows the whole of batch `b`, and the two output
  windows are written back to rows `512·qi …` of batch `b` of their arrays. So what a point writes back is that
  block of the specification's arrays of the WHOLE argument arrays; the 64 blocks tile each result array, hence
  after the run each result array is the specification's.
-/
import proofs.«174756_j62251255988379_1_alg».proof.Proof.Gen.KernelIdeal.Value
import proofs.«174756_j62251255988379_1_alg».proof.Proof.KernelRow
import proofs.«174756_j62251255988379_1_alg».proof.Proof.Spec
import Idealize.ShloMosaic.Lib.Pipeline.Value
import Idealize.ShloMosaic.Lib.ValueIdx

set_option maxRecDepth 16384

noncomputable section

namespace Cert.Attn.KernelBlocks

open Cert.KernelIdeal Cert.KernelIdeal.Gen Idealize.ShloMosaic Idealize.ShloMosaic.TcCoe Idealize.SL.Sem
open Idealize.ShloMosaic.Pipeline (Dat)
open Idealize.ShloMosaic.ValueIdx
open Cert.Attn Cert.Attn.KernelRow

variable (m : (ℓ : Loc nD τ sig) → Buf (Elt Ideal) ℓ) (ρ : Dev nD → PrngReg)

theorem hz3 : (![0, 0, 0] : Fin 3 → Nat) = fun _ => 0 := funext fun a => by fin_cases a <;> rfl

/-! ## Where each window's block sits, over the grid -/

/-- The printed index maps, decided over the 64 points: the query, mask and the two output windows share the batch and
    the row block; the key and value windows share the batch and start at row 0; every window starts at column 0;
    the batch is below 16 and the row block below 4. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (2 : Fin 3) = 0
    ∧ win0_5.index t (0 : Fin 3) ≤ 15 ∧ win0_5.index t (1 : Fin 3) ≤ 3 :=
  (by decide +kernel : ∀ t : Fin grid0.N, _)

/-- Every (batch, row block) is some point's. -/
theorem idx_onto : ∀ (q0 : Fin 16) (q1 : Fin 4), ∃ t : Fin cfg0.N, win0_5.index t (0 : Fin 3) = q0.val ∧ win0_5.index t (1 : Fin 3) = q1.val :=
  (by decide +kernel : ∀ (q0 : Fin 16) (q1 : Fin 4), ∃ t : Fin grid0.N, win0_5.index t (0 : Fin 3) = q0.val ∧ win0_5.index t (1 : Fin 3) = q1.val)

/-! ## The input blocks at a point, by their literal types, read off the argument arrays -/

abbrev qblk (c : Dev nD) (t : Fin cfg0.N) : Vec Ideal S1x512x64 .f32 := iblk m c 0 t
abbrev kblk (c : Dev nD) (t : Fin cfg0.N) : Vec Ideal S1x2048x64 .f32 := iblk m c 1 t
abbrev vblk (c : Dev nD) (t : Fin cfg0.N) : Vec Ideal S1x2048x64 .f32 := iblk m c 2 t
abbrev mblk (c : Dev nD) (t : Fin cfg0.N) : Vec Ideal S1x512x2048 .f32 := iblk m c 3 t

/-- Row `r` of the query block at a point is row `n` of batch `b` of the query array. -/
theorem qblk_at (c : Dev nD) (t : Fin cfg0.N) (r : Fin 512) (d : Fin 64) (b : Fin 16) (n : Fin 2048)
    (hb : b.val = win0_0.index t (0 : Fin 3)) (hn : n.val = win0_0.index t (1 : Fin 3) * 512 + r.val) (h2 : win0_0.index t (2 : Fin 3) = 0) :
    qblk m c t (ix3 (0 : Fin 1) r d) = V m c main_arg0 (ix3 b n d) := by
  show V m c main_arg0 (((cfg0.win 0).blk t).view.emb (ix3 (0 : Fin 1) r d)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 64 + 1 * d.val = d.val; omega

/-- Row `k` of the key block at a point is row `k` of batch `b` of the key array. -/
theorem kblk_at (c : Dev nD) (t : Fin cfg0.N) (k : Fin 2048) (d : Fin 64) (b : Fin 16)
    (hb : b.val = win0_1.index t (0 : Fin 3)) (h1 : win0_1.index t (1 : Fin 3) = 0) (h2 : win0_1.index t (2 : Fin 3) = 0) :
    kblk m c t (ix3 (0 : Fin 1) k d) = V m c main_arg1 (ix3 b k d) := by
  show V m c main_arg1 (((cfg0.win 1).blk t).view.emb (ix3 (0 : Fin 1) k d)) = _
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * k.val = k.val; omega
  | ⟨2, _⟩ => show win0_1.index t (2 : Fin 3) * 64 + 1 * d.val = d.val; omega

/-- Row `k` of the value block at a point is row `k` of batch `b` of the value array. -/
theorem vblk_at (c : Dev nD) (t : Fin cfg0.N) (k : Fin 2048) (d : Fin 64) (b : Fin 16)
    (hb : b.val = win0_2.index t (0 : Fin 3)) (h1 : win0_2.index t (1 : Fin 3) = 0) (h2 : win0_2.index t (2 : Fin 3) = 0) :
    vblk m c t (ix3 (0 : Fin 1) k d) = V m c main_arg2 (ix3 b k d) := by
  show V m c main_arg2 (((cfg0.win 2).blk t).view.emb (ix3 (0 : Fin 1) k d)) = _
  refine congrArg (V m c main_arg2) (funext fun a => Fin.ext ?_)
  match a with
  | ⟨0, _⟩ => show win0_2.index t (0 : Fin 3) * 1 + 1 * 0 = b.val; omega
  | ⟨1, _⟩ => show win0_2.index t (1 : Fin 3) * 2048 + 1 * k.val = k.val; omega
  | ⟨2, _⟩ => show win0_2.index t (2 : Fin 3) * 64 + 1 * d.val = d.val; omega

/-- Row `r` of the mask block at a point is row `n` of batch `b` of the mask array. -/
theorem mblk_at (c : Dev nD) (t : Fin cfg0.N) (r : Fin 512) (k : Fin 2048) (b : Fin 16) (n : Fin 2048)
    (hb : b.val = win0_3.index t (0 : Fin 3)) (hn : n.val = win0_3.index t (1 : Fin 3) * 512 + r.val) (h2 : win0_3.index t (2 : Fin 3) = 0) :
    mblk m c t (ix3 (0 : Fin 1) r k) = V m c main_arg3 (ix3 b n k) := by
  show V m c main_arg3 (((cfg0.win 3).blk t).view.emb (ix3 (0 : Fin 1) r k)) = _
  refine congrArg (V m c main_arg3) (funext fun a => Fin.ext ?_)
  match a with
  | ⟨0, _⟩ => show win0_3.index t (0 : Fin 3) * 1 + 1 * 0 = b.val; omega
  | ⟨1, _⟩ => show win0_3.index t (1 : Fin 3) * 512 + 1 * r.val = n.val; omega
  | ⟨2, _⟩ => show win0_3.index t (2 : Fin 3) * 2048 + 1 * k.val = k.val; omega

/-! ## What a point computes is the specification at the block's place in the arrays -/

/-- The attention block at a point, at `(r, k)`, is the specification's attention matrix at `(b, n, k)`, `b` the
    point's batch and `n` the row `r` of its row block. -/
theorem att_point (c : Dev nD) (t : Fin cfg0.N) (r : Fin 512) (k : Fin 2048) (b : Fin 16) (n : Fin 2048)
    (hb : b.val = win0_5.index t (0 : Fin 3)) (hn : n.val = win0_5.index t (1 : Fin 3) * 512 + r.val) :
    k0_pay3 (F := Ideal) (qblk m c t) (kblk m c t) (mblk m c t) (ix2 r k)
      = attArr (V m c main_arg0) (V m c main_arg1) (V m c main_arg3) (ix3 b n k) := by
  obtain ⟨e00, e01, e02, e10, e11, e12, e20, e21, e22, e30, e31, e32, e40, e41, e42, e52, -, -⟩ := idx_facts t
  rw [pay3_at]
  show _ = attRow (fun d => V m c main_arg0 (ix3 b n d)) (fun k d => V m c main_arg1 (ix3 b k d)) (fun k => V m c main_arg3 (ix3 b n k)) k
  rw [show (fun d : Fin 64 => qblk m c t (ix3 (0 : Fin 1) r d)) = (fun d => V m c main_arg0 (ix3 b n d)) from
        funext fun d => qblk_at m c t r d b n (by omega) (by omega) e02,
    show (fun (k : Fin 2048) (d : Fin 64) => kblk m c t (ix3 (0 : Fin 1) k d)) = (fun k d => V m c main_arg1 (ix3 b k d)) from
        funext fun k => funext fun d => kblk_at m c t k d b (by omega) e11 e12,
    show (fun k : Fin 2048 => mblk m c t (ix3 (0 : Fin 1) r k)) = (fun k => V m c main_arg3 (ix3 b n k)) from
        funext fun k => mblk_at m c t r k b n (by omega) (by omega) e32]

/-- The output block at a point, at `(r, d)`, is the specification's output at `(b, n, d)`. -/
theorem out_point (c : Dev nD) (t : Fin cfg0.N) (r : Fin 512) (d : Fin 64) (b : Fin 16) (n : Fin 2048)
    (hb : b.val = win0_5.index t (0 : Fin 3)) (hn : n.val = win0_5.index t (1 : Fin 3) * 512 + r.val) :
    k0_pay4 (F := Ideal) (qblk m c t) (kblk m c t) (vblk m c t) (mblk m c t) (ix2 r d)
      = outArr (V m c main_arg0) (V m c main_arg1) (V m c main_arg2) (V m c main_arg3) (ix3 b n d) := by
  obtain ⟨e00, e01, e02, e10, e11, e12, e20, e21, e22, e30, e31, e32, e40, e41, e42, e52, -, -⟩ := idx_facts t
  rw [pay4_at]
  show _ = outRow (fun d => V m c main_arg0 (ix3 b n d)) (fun k d => V m c main_arg1 (ix3 b k d)) (fun k => V m c main_arg3 (ix3 b n k))
    (fun k => V m c main_arg2 (ix3 b k d))
  rw [show (fun d : Fin 64 => qblk m c t (ix3 (0 : Fin 1) r d)) = (fun d => V m c main_arg0 (ix3 b n d)) from
        funext fun d => qblk_at m c t r d b n (by omega) (by omega) e02,
    show (fun (k : Fin 2048) (d : Fin 64) => kblk m c t (ix3 (0 : Fin 1) k d)) = (fun k d => V m c main_arg1 (ix3 b k d)) from
        funext fun k => funext fun d => kblk_at m c t k d b (by omega) e11 e12,
    show (fun k : Fin 2048 => mblk m c t (ix3 (0 : Fin 1) r k)) = (fun k => V m c main_arg3 (ix3 b n k)) from
        funext fun k => mblk_at m c t r k b n (by omega) (by omega) e32,
    show (fun k : Fin 2048 => vblk m c t (ix3 (0 : Fin 1) k d)) = (fun k => V m c main_arg2 (ix3 b k d)) from
        funext fun k => vblk_at m c t k d b (by omega) e21 e22]

/-! ## The body's two stored blocks, over any input blocks -/

/-- The attention block the body leaves, at block index `y`, is its attention payload at `(y 1, y 2)`. -/
theorem out5_at (P0 : Vec Ideal S1x512x64 .f32) (P1 P2 : Vec Ideal S1x2048x64 .f32) (P3 : Vec Ideal S1x512x2048 .f32)
    (y : S1x512x2048.Idx) (hy1 : (y 1).val < 512) (hy2 : (y 2).val < 2048) :
    out0_5 P0 P1 P2 P3 y = k0_pay3 (F := Ideal) P0 P1 P3 (ix2 (⟨(y 1).val, hy1⟩ : Fin 512) (⟨(y 2).val, hy2⟩ : Fin 2048)) := by
  unfold out0_5
  simp only [View.ld_unit_zero (S := S1x512x64) hz3, View.ld_unit_zero (S := S1x2048x64) hz3, View.ld_unit_zero (S := S1x512x2048) hz3]
  rw [Cert.KernelIdeal.Value.canon5_eq]
  show k0_pay3 (F := Ideal) P0 P1 P3 (Cert.KernelIdeal.Value.ix5_0 y) = _
  exact congrArg (k0_pay3 (F := Ideal) P0 P1 P3) (funext fun a => Fin.ext (by match a with | ⟨0, _⟩ => rfl | ⟨1, _⟩ => rfl))

/-- The output block the body leaves, at block index `y`, is its output payload at `(y 1, y 2)`. -/
theorem out4_at (P0 : Vec Ideal S1x512x64 .f32) (P1 P2 : Vec Ideal S1x2048x64 .f32) (P3 : Vec Ideal S1x512x2048 .f32)
    (y : S1x512x64.Idx) (hy1 : (y 1).val < 512) (hy2 : (y 2).val < 64) :
    out0_4 P0 P1 P2 P3 y = k0_pay4 (F := Ideal) P0 P1 P2 P3 (ix2 (⟨(y 1).val, hy1⟩ : Fin 512) (⟨(y 2).val, hy2⟩ : Fin 64)) := by
  unfold out0_4
  simp only [View.ld_unit_zero (S := S1x512x64) hz3, View.ld_unit_zero (S := S1x2048x64) hz3, View.ld_unit_zero (S := S1x512x2048) hz3]
  rw [Cert.KernelIdeal.Value.canon4_eq]
  show k0_pay4 (F := Ideal) P0 P1 P2 P3 (Cert.KernelIdeal.Value.ix4_0 y) = _
  exact congrArg (k0_pay4 (F := Ideal) P0 P1 P2 P3) (funext fun a => Fin.ext (by match a with | ⟨0, _⟩ => rfl | ⟨1, _⟩ => rfl))

/-! ## What a point writes back -/

/-- Point `t` writes back, to the attention array, block `t` of the specification's attention matrix. -/
theorem flushed5_eq (c : Dev nD) (t : Fin cfg0.N) :
    (dats m 0 c).flushed 5 t
      = ((cfg0.win 5).blk t).view.read (Elt Ideal) (attArr (V m c main_arg0) (V m c main_arg1) (V m c main_arg3)) := by
  rw [Cert.KernelIdeal.Value.flushed5]
  funext y
  obtain ⟨e00, e01, e02, e10, e11, e12, e20, e21, e22, e30, e31, e32, e40, e41, e42, e52, l0, l1⟩ := idx_facts t
  have hy0 : (y 0).val < 1 := (y 0).isLt
  have hy1 : (y 1).val < 512 := (y 1).isLt
  have hy2 : (y 2).val < 2048 := (y 2).isLt
  show out0_5 (qblk m c t) (kblk m c t) (vblk m c t) (mblk m c t) y
    = attArr (V m c main_arg0) (V m c main_arg1) (V m c main_arg3) (((cfg0.win 5).blk t).view.emb y)
  rw [out5_at (qblk m c t) (kblk m c t) (vblk m c t) (mblk m c t) y hy1 hy2]
  refine (att_point m c t ⟨(y 1).val, hy1⟩ ⟨(y 2).val, hy2⟩ ⟨win0_5.index t (0 : Fin 3), by omega⟩
    ⟨win0_5.index t (1 : Fin 3) * 512 + (y 1).val, by omega⟩ rfl rfl).trans ?_
  refine congrArg (attArr (V m c main_arg0) (V m c main_arg1) (V m c main_arg3)) (funext fun a => Fin.ext ?_)
  match a with
  | ⟨0, _⟩ => show win0_5.index t (0 : Fin 3) = win0_5.index t (0 : Fin 3) * 1 + 1 * (y 0).val; omega
  | ⟨1, _⟩ => show win0_5.index t (1 : Fin 3) * 512 + (y 1).val = win0_5.index t (1 : Fin 3) * 512 + 1 * (y 1).val; omega
  | ⟨2, _⟩ => show (y 2).val = win0_5.index t (2 : Fin 3) * 2048 + 1 * (y 2).val; omega

/-- Point `t` writes back, to the output array, block `t` of the specification's output. -/
theorem flushed4_eq (c : Dev nD) (t : Fin cfg0.N) :
    (dats m 0 c).flushed 4 t
      = ((cfg0.win 4).blk t).view.read (Elt Ideal) (outArr (V m c main_arg0) (V m c main_arg1) (V m c main_arg2) (V m c main_arg3)) := by
  rw [Cert.KernelIdeal.Value.flushed4]
  funext y
  obtain ⟨e00, e01, e02, e10, e11, e12, e20, e21, e22, e30, e31, e32, e40, e41, e42, e52, l0, l1⟩ := idx_facts t
  have hy0 : (y 0).val < 1 := (y 0).isLt
  have hy1 : (y 1).val < 512 := (y 1).isLt
  have hy2 : (y 2).val < 64 := (y 2).isLt
  show out0_4 (qblk m c t) (kblk m c t) (vblk m c t) (mblk m c t) y
    = outArr (V m c main_arg0) (V m c main_arg1) (V m c main_arg2) (V m c main_arg3) (((cfg0.win 4).blk t).view.emb y)
  rw [out4_at (qblk m c t) (kblk m c t) (vblk m c t) (mblk m c t) y hy1 hy2]
  refine (out_point m c t ⟨(y 1).val, hy1⟩ ⟨(y 2).val, hy2⟩ ⟨win0_5.index t (0 : Fin 3), by omega⟩
    ⟨win0_5.index t (1 : Fin 3) * 512 + (y 1).val, by omega⟩ rfl rfl).trans ?_
  refine congrArg (outArr (V m c main_arg0) (V m c main_arg1) (V m c main_arg2) (V m c main_arg3)) (funext fun a => Fin.ext ?_)
  match a with
  | ⟨0, _⟩ => show win0_5.index t (0 : Fin 3) = win0_4.index t (0 : Fin 3) * 1 + 1 * (y 0).val; omega
  | ⟨1, _⟩ => show win0_5.index t (1 : Fin 3) * 512 + (y 1).val = win0_4.index t (1 : Fin 3) * 512 + 1 * (y 1).val; omega
  | ⟨2, _⟩ => show (y 2).val = win0_4.index t (2 : Fin 3) * 64 + 1 * (y 2).val; omega

/-! ## The blocks tile the arrays -/

/-- An index of the attention array is in point `t`'s block iff each coordinate is in the block's range. -/
theorem mem_blk5 (t : Fin cfg0.N) (i : S16x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v0_1).slice (win0_5.rect t)).set ↔ _
  rw [View.set_slice_whole, Rect.mem_set_unit]
  exact Iff.rfl

/-- An index of the output array is in point `t`'s block iff each coordinate is in the block's range. -/
theorem mem_blk4 (t : Fin cfg0.N) (i : S16x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v0_0).slice (win0_4.rect t)).set ↔ _
  rw [View.set_slice_whole, Rect.mem_set_unit]
  exact Iff.rfl

/-- Every index of the attention array is in some point's block: the point of its batch and of its row's block. -/
theorem cover5 (i : S16x2048x2048.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, q0, q1⟩ := idx_onto ⟨(i 0).val, hi0⟩ ⟨(i 1).val / 512, by omega⟩
  obtain ⟨e00, e01, e02, e10, e11, e12, e20, e21, e22, e30, e31, e32, e40, e41, e42, e52, l0, l1⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; simp only at q0; omega
  | ⟨1, _⟩ => show win0_5.index t (1 : Fin 3) * 512 ≤ (i 1).val ∧ (i 1).val < win0_5.index t (1 : Fin 3) * 512 + 512; simp only at q1; omega
  | ⟨2, _⟩ => show win0_5.index t (2 : Fin 3) * 2048 ≤ (i 2).val ∧ (i 2).val < win0_5.index t (2 : Fin 3) * 2048 + 2048; omega

/-- Every index of the output array is in some point's block. -/
theorem cover4 (i : S16x2048x64.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, q0, q1⟩ := idx_onto ⟨(i 0).val, hi0⟩ ⟨(i 1).val / 512, by omega⟩
  obtain ⟨e00, e01, e02, e10, e11, e12, e20, e21, e22, e30, e31, e32, e40, e41, e42, e52, l0, l1⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; simp only at q0; omega
  | ⟨1, _⟩ => show win0_4.index t (1 : Fin 3) * 512 ≤ (i 1).val ∧ (i 1).val < win0_4.index t (1 : Fin 3) * 512 + 512; simp only at q1; omega
  | ⟨2, _⟩ => show win0_4.index t (2 : Fin 3) * 64 ≤ (i 2).val ∧ (i 2).val < win0_4.index t (2 : Fin 3) * 64 + 64; omega

/-! ## The arrays after the run -/

/-- After the run the attention array is the specification's attention matrix of the argument arrays. -/
theorem final5 (c : Dev nD) :
    (dats m 0 c).arrAt 5 cfg0.N = attArr (m ((c : Thread nD τ).loc main_arg0)) (m ((c : Thread nD τ).loc main_arg1)) (m ((c : Thread nD τ).loc main_arg3)) :=
  (dats m 0 c).arrAt_eq_of_cover 5 (attArr (V m c main_arg0) (V m c main_arg1) (V m c main_arg3)) (fun t _ => flushed5_eq m c t) cover5

/-- After the run the output array is the specification's output of the argument arrays. -/
theorem final4 (c : Dev nD) :
    (dats m 0 c).arrAt 4 cfg0.N = outArr (m ((c : Thread nD τ).loc main_arg0)) (m ((c : Thread nD τ).loc main_arg1)) (m ((c : Thread nD τ).loc main_arg2)) (m ((c : Thread nD τ).loc main_arg3)) :=
  (dats m 0 c).arrAt_eq_of_cover 4 (outArr (V m c main_arg0) (V m c main_arg1) (V m c main_arg2) (V m c main_arg3)) (fun t _ => flushed4_eq m c t) cover4

/-- The kernel's run: both result arrays at the specification of the argument arrays, the arguments unchanged. -/
theorem run : θ_run defs (onTc (τ := τ) (main (F := Ideal))) ⟨m, fun _ => 0, ρ⟩ fun r => ∀ c : Dev nD,
      r.2.mem ((c : Thread nD τ).loc main_v0_0) = outArr (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = attArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Attn.KernelBlocks

end
-- ==== Proof.RefRow.lean ====
/-
  The reference, stage by stage, is the row functions of the specification.

  The reference forms all scores at once (one batched product over the 64 features, divided by `8.0` and multiplied
  by the mask), sends exact zeros to −∞, and normalises along the last axis: the maximum of each row (a reduction from
  −∞, then `max` with −∞), the exponentials of the shifted row, their sum (from `+0.0`), the quotient; the output is a
  second batched product over the 2048 keys. Read at an index `(b, n, k)` each stage is the corresponding row function
  of query row `(b, n)`; the only step that is not a re-reading is that the quotient by `8.0` is the product with `0.125`.
-/
import proofs.«174756_j62251255988379_1_alg».proof.Proof.Gen.ReferenceIdeal.Read
import proofs.«174756_j62251255988379_1_alg».proof.Proof.Spec
import Idealize.ShloMosaic.PureOps.Reduce
import Idealize.ShloMosaic.PureOps.Ideal.Laws
import Idealize.ShloMosaic.Lib.ValueIdx

noncomputable section

namespace Cert.Attn.RefRow

open Idealize.ShloMosaic Idealize.ShloMosaic.ValueIdx
open Cert.ReferenceIdeal Cert.ReferenceIdeal.Gen Cert.ReferenceIdeal.Read
open Cert.Attn
open scoped BigOperators

variable (x0 x1 x2 : (⟨S16x2048x64, .f32⟩ : BufTy).Contents (Elt Ideal))
variable (x3 : (⟨S16x2048x2048, .f32⟩ : BufTy).Contents (Elt Ideal))

/-- The masked score of query row `(b, n)` against key `k`: the reference's quotient by `8.0` is the product with `0.125`. -/
theorem score_at (b : Fin 16) (n k : Fin 2048) :
    val_main_v6 (F := Ideal) x0 x1 x3 (ix3 b n k)
      = scoreRow (fun d => x0 (ix3 b n d)) (fun k d => x1 (ix3 b k d)) (fun k => x3 (ix3 b n k)) k := by
  have el : ∀ d : Fin 64, lidx_main_v0 (ix3 b n k) d = ix3 b n d := fun d => funext fun a => Fin.ext (by
    match a with | ⟨0, _⟩ => rfl | ⟨1, _⟩ => rfl | ⟨2, _⟩ => rfl)
  have er : ∀ d : Fin 64, ridx_main_v0 (ix3 b n k) d = ix3 b k d := fun d => funext fun a => Fin.ext (by
    match a with | ⟨0, _⟩ => rfl | ⟨1, _⟩ => rfl | ⟨2, _⟩ => rfl)
  rw [val_main_v6_apply, val_main_v5_apply, val_main_call0_v1_apply, val_main_call0_v0_apply, val_main_cst_1_apply,
    val_main_v4_apply, val_main_cst_0_apply, val_main_v3_apply, val_main_v2_apply, val_main_v1_apply, val_main_cst_apply,
    val_main_v0_apply]
  simp only [el, er]
  show Scalar.select (Ideal.cmp .oeq (Ideal.div (∑ d : Fin 64, x0 (ix3 b n d) * x1 (ix3 b k d)) wEight * x3 (ix3 b n k)) wZero) wNegInf
      (Ideal.div (∑ d : Fin 64, x0 (ix3 b n d) * x1 (ix3 b k d)) wEight * x3 (ix3 b n k)) = _
  rw [div_eight]
  rfl

/-- The maximum the reference subtracts from row `(b, n)`. -/
theorem max_at (b : Fin 16) (n : Fin 2048) :
    val_main_v9 (F := Ideal) x0 x1 x3 (ix2 b n)
      = rowMax (scoreRow (fun d => x0 (ix3 b n d)) (fun k d => x1 (ix3 b k d)) (fun k => x3 (ix3 b n k))) := by
  have h : S16x2048x2048.Reduces [2] S16x2048 := by decide
  rw [val_main_v9_apply, val_main_v8_apply, val_main_cst_3_apply]
  unfold val_main_v7 rowMax
  refine congrArg (max wNegInf) ?_
  refine (Host.reduce_eq_fold_single (max : EReal → EReal → EReal) (val_main_v6 (F := Ideal) x0 x1 x3) (val_main_cst_2 (F := Ideal))
    reducesTo_S16x2048x2048_S16x2048_d2 h h_S_ (ix2 b n)).trans ?_
  refine congrArg (fun f => (Finset.univ : Finset (Fin 2048)).fold max wNegInf f) (funext fun k => ?_)
  refine (congrArg (val_main_v6 (F := Ideal) x0 x1 x3) (funext fun a => Fin.ext (by
    match a with | ⟨0, _⟩ => rfl | ⟨1, _⟩ => rfl | ⟨2, _⟩ => rfl))).trans (score_at x0 x1 x3 b n k)

/-- The exponential of the shifted score. -/
theorem exp_at (b : Fin 16) (n k : Fin 2048) :
    val_main_v13 (F := Ideal) x0 x1 x3 (ix3 b n k)
      = rowExp (scoreRow (fun d => x0 (ix3 b n d)) (fun k d => x1 (ix3 b k d)) (fun k => x3 (ix3 b n k))) k := by
  have e : idx_main_v10 (idx_main_v11 (ix3 b n k)) = ix2 b n := funext fun a => Fin.ext (by
    match a with | ⟨0, _⟩ => rfl | ⟨1, _⟩ => rfl)
  rw [val_main_v13_apply, val_main_v12_apply, val_main_v11_apply, val_main_v10_apply, e, max_at, score_at]
  rfl

/-- The sum the reference divides row `(b, n)` by. -/
theorem sum_at (b : Fin 16) (n : Fin 2048) :
    val_main_v14 (F := Ideal) x0 x1 x3 (ix2 b n)
      = ∑ k : Fin 2048, rowExp (scoreRow (fun d => x0 (ix3 b n d)) (fun k d => x1 (ix3 b k d)) (fun k => x3 (ix3 b n k))) k := by
  rw [val_main_v14_apply, val_main_cst_4_apply]
  show Ideal.ofBits .f32 0x00000000#32 + _ = _
  rw [Ideal.ofBits_zero_f32, zero_add]
  refine Finset.sum_congr rfl fun k _ => ?_
  refine (congrArg (val_main_v13 (F := Ideal) x0 x1 x3) (funext fun a => Fin.ext (by
    match a with | ⟨0, _⟩ => rfl | ⟨1, _⟩ => rfl | ⟨2, _⟩ => rfl))).trans (exp_at x0 x1 x3 b n k)

/-- The reference's attention matrix at `(b, n, k)`. -/
theorem att_at (b : Fin 16) (n k : Fin 2048) :
    val_main_v17 (F := Ideal) x0 x1 x3 (ix3 b n k)
      = attRow (fun d => x0 (ix3 b n d)) (fun k d => x1 (ix3 b k d)) (fun k => x3 (ix3 b n k)) k := by
  have e : idx_main_v15 (idx_main_v16 (ix3 b n k)) = ix2 b n := funext fun a => Fin.ext (by
    match a with | ⟨0, _⟩ => rfl | ⟨1, _⟩ => rfl)
  rw [val_main_v17_apply, val_main_v16_apply, val_main_v15_apply, e, sum_at, exp_at]
  rfl

/-- The reference's attention matrix is the specification's. -/
theorem att_eq : val_main_v17 (F := Ideal) x0 x1 x3 = attArr x0 x1 x3 := by
  funext i
  obtain ⟨b, n, k, rfl⟩ : ∃ (b : Fin 16) (n k : Fin 2048), i = ix3 b n k := ⟨i 0, i 1, i 2, eq_ix3 i⟩
  exact att_at x0 x1 x3 b n k

/-- The reference's output is the specification's. -/
theorem out_eq : val_main_v18 (F := Ideal) x0 x1 x2 x3 = outArr x0 x1 x2 x3 := by
  funext i
  obtain ⟨b, n, d, rfl⟩ : ∃ (b : Fin 16) (n : Fin 2048) (d : Fin 64), i = ix3 b n d := ⟨i 0, i 1, i 2, eq_ix3 i⟩
  rw [val_main_v18_apply]
  unfold outArr outRow
  refine Finset.sum_congr rfl fun k _ => ?_
  have el : lidx_main_v18 (ix3 b n d) k = ix3 b n k := funext fun a => Fin.ext (by
    match a with | ⟨0, _⟩ => rfl | ⟨1, _⟩ => rfl | ⟨2, _⟩ => rfl)
  have er : ridx_main_v18 (ix3 b n d) k = ix3 b k d := funext fun a => Fin.ext (by
    match a with | ⟨0, _⟩ => rfl | ⟨1, _⟩ => rfl | ⟨2, _⟩ => rfl)
  rw [el, er, att_at]

end Cert.Attn.RefRow

end
-- ==== Proof.lean ====
/-
  Dense attention with a multiplicative mask, returning the attention output and the attention matrix: the tiled
  kernel against the whole-array reference, over the extended reals.

  The kernel tiles the 16 × 2048 query rows into 64 blocks of 512 rows of one batch; for a block it forms the scores
  against all 2048 keys of the batch as one matrix product, scales them by `0.125`, multiplies by the mask block,
  replaces exact zeros by −∞, normalises every row by the softmax and multiplies the weights with the batch's values.
  The reference does the same on whole arrays, with a quotient by `8.0` where the kernel multiplies by `0.125`.
  Over the extended reals narrowing to bf16 is the identity and both matrix products are plain sums, so each row of
  either program is one function of the row's query, the batch's keys and values and the row's mask entries
  (Proof/Spec.lean); the two agree because `x / 8 = x · (1/8)` on every extended real. Nothing here needs the inputs
  finite: the same operations are applied in the same order on both sides, so the two results agree at the
  infinities too.

  Proof/KernelRow.lean reads one block of the kernel's body at an index; Proof/KernelBlocks.lean places the 64 blocks in
  the two result arrays; Proof/RefRow.lean reads the reference stage by stage. The three frames are the generated
  ones (the reference's is its generated run with the results dropped), and the idealisation rewrote nothing.
-/
import proofs.«174756_j62251255988379_1_alg».proof.Defs
import proofs.«174756_j62251255988379_1_alg».proof.Proof.Gen.Kernel
import proofs.«174756_j62251255988379_1_alg».proof.Proof.Gen.Kernel.Skeleton
import proofs.«174756_j62251255988379_1_alg».proof.Proof.Gen.Kernel.Launch
import proofs.«174756_j62251255988379_1_alg».proof.Proof.Gen.Kernel.Points
import proofs.«174756_j62251255988379_1_alg».proof.Proof.Gen.Kernel.Frame
import proofs.«174756_j62251255988379_1_alg».proof.Proof.Gen.KernelIdeal
import proofs.«174756_j62251255988379_1_alg».proof.Proof.Gen.KernelIdeal.Skeleton
import proofs.«174756_j62251255988379_1_alg».proof.Proof.Gen.KernelIdeal.Launch
import proofs.«174756_j62251255988379_1_alg».proof.Proof.Gen.KernelIdeal.Points
import proofs.«174756_j62251255988379_1_alg».proof.Proof.Gen.KernelIdeal.Frame
import proofs.«174756_j62251255988379_1_alg».proof.Proof.Gen.ReferenceIdeal
import proofs.«174756_j62251255988379_1_alg».proof.Proof.Gen.Pre_finite_inputs
import proofs.«174756_j62251255988379_1_alg».proof.Proof.Gen.KernelIdeal.Value
import proofs.«174756_j62251255988379_1_alg».proof.Proof.Gen.ReferenceIdeal.Run
import proofs.«174756_j62251255988379_1_alg».proof.Proof.Gen.ReferenceIdeal.Read
import proofs.«174756_j62251255988379_1_alg».proof.Proof.Spec
import proofs.«174756_j62251255988379_1_alg».proof.Proof.KernelRow
import proofs.«174756_j62251255988379_1_alg».proof.Proof.KernelBlocks
import proofs.«174756_j62251255988379_1_alg».proof.Proof.RefRow
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Over the extended reals, from memories that agree on the four arguments, both programs end with the attention
    output and the attention matrix at the specification's arrays of those arguments. -/
theorem algebraic : Cert.algebraic_KernelIdeal_ReferenceIdeal := by
  intro m ρ m' ρ' _ hagree
  refine ⟨fun c => Cert.Attn.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Attn.attArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.Attn.KernelBlocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, Cert.Attn.RefRow.out_eq, (hagree c).1, (hagree c).2.1, (hagree c).2.2.1,
      (hagree c).2.2.2]
  · rw [(h c).2.1, Cert.ReferenceIdeal.Read.val_main_v17_eq, Cert.Attn.RefRow.att_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
